-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32 : Shape := ⟨2, ![2048, 32]⟩
abbrev S1024x1 : Shape := ⟨2, ![1024, 1]⟩
abbrev S1024 : Shape := ⟨1, ![1024]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2048x32 .f32) (main_arg1 : FVec F S1024x1 .f32) (main_arg2 : FVec F S1024 .f32) (main_arg3 : FVec F S1024 .f32) (main_arg4 : FVec F S1024 .f32) : IVec S_ 1 :=
  let main_v0 : FVec F S2048x32 .f32 := Host.absf main_arg0
  let main_cst : FVec F S_ .f32 := constant S_ .f32 0x7F800000#32
  let main_v1 : FVec F S2048x32 .f32 := broadcastInDim S2048x32 ![] bcast_S_S2048x32 main_cst
  let main_v2 : IVec S2048x32 1 := cmpf .olt main_v0 main_v1
  let main_c : IVec S_ 1 := constantI S_ 1 1#1
  let main_v3 : IVec S_ 1 := (fun x v => Host.reduce IntOp.andi x v reducesTo_S2048x32_S_d0_1 h_S_) main_v2 main_c
  let main_v4 : FVec F S1024x1 .f32 := Host.absf main_arg1
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_c_1 : IVec S_ 1 := constantI S_ 1 1#1
  let main_v7 : IVec S_ 1 := (fun x v => Host.reduce IntOp.andi x v reducesTo_S1024x1_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S2048x32 : Shape := ⟨2, ![2048, 32]⟩
abbrev S1024x1 : Shape := ⟨2, ![1024, 1]⟩
abbrev S1024 : Shape := ⟨1, ![1024]⟩
abbrev S65536x1 : Shape := ⟨2, ![65536, 1]⟩
abbrev S1x1024 : Shape := ⟨2, ![1, 1024]⟩
abbrev S65536x1024 : Shape := ⟨2, ![65536, 1024]⟩
abbrev S1024x1024 : Shape := ⟨2, ![1024, 1024]⟩
abbrev S2048x32x1024 : Shape := ⟨3, ![2048, 32, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2048x32, .f32⟩
  | .hbm, ⟨1, _⟩ => ⟨S1024x1, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S65536x1, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S65536x1024, .f32⟩
  | .hbm, ⟨11, _⟩ => ⟨S2048x32x1024, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2048x32_S65536x1 : S2048x32.ShapeCasts S65536x1
  shapeCasts_S1024x1_S1x1024 : S1024x1.ShapeCasts S1x1024
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  inb_S1024x1024_S1024x1024_0_0 : ∀ a, (![0, 0] : Fin 2 → Nat) a + S1024x1024.size a ≤ S1024x1024.size a
  h_S1024x1024 : 0 < S1024x1024.numel
  shapeCasts_S65536x1024_S2048x32x1024 : S65536x1024.ShapeCasts S2048x32x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S65536x1.size a
  hwx0_0 : ∀ i : grid0.Coords, EltTy.bits .f32 = 32 ∨ (Rect.block (s := S65536x1) S1024x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S65536x1024.size a
  hwx0_5 : ∀ i : grid0.Coords, EltTy.bits .f32 = 32 ∨ (Rect.block (s := S65536x1024) S1024x1024.size (cc0_transform_5 i) (hinb0_5 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x32 : Shape := ⟨2, ![2048, 32]⟩
abbrev S1024x1 : Shape := ⟨2, ![1024, 1]⟩
abbrev S1024 : Shape := ⟨1, ![1024]⟩
abbrev S2048x32x1 : Shape := ⟨3, ![2048, 32, 1]⟩
abbrev S1x1x1024 : Shape := ⟨3, ![1, 1, 1024]⟩
abbrev S2048x32x1024 : Shape := ⟨3, ![2048, 32, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x32, .f32⟩
  | .hbm, ⟨1, _⟩ => ⟨S1024x1, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S2048x32x1, .f32⟩
  | .hbm, ⟨6, _⟩ => ⟨S1024, .f32⟩
  | .hbm, ⟨7, _⟩ => ⟨S1x1x1024, .f32⟩
  | .hbm, ⟨8, _⟩ => ⟨S2048x32x1024, .f32⟩
  | .hbm, ⟨9, _⟩ => ⟨S2048x32x1024, .f32⟩
  | .hbm, ⟨10, _⟩ => ⟨S2048x32x1024, .f32⟩
  | .hbm, ⟨11, _⟩ => ⟨S1x1x1024, .f32⟩
  | .hbm, ⟨12, _⟩ => ⟨S2048x32x1024, .f32⟩
  | .hbm, ⟨13, _⟩ => ⟨S2048x32x1024, .f32⟩
  | .hbm, ⟨14, _⟩ => ⟨S_, .f32⟩
  | .hbm, ⟨15, _⟩ => ⟨S2048x32x1024, .f32⟩
  | .hbm, ⟨16, _⟩ => ⟨S2048x32x1024, .f32⟩
  | .hbm, ⟨17, _⟩ => ⟨S_, .f32⟩
  | .hbm, ⟨18, _⟩ => ⟨S2048x32, .f32⟩
  | .hbm, ⟨19, _⟩ => ⟨S2048x32x1, .f32⟩
  | .hbm, ⟨20, _⟩ => ⟨S_, .f32⟩
  | .hbm, ⟨21, _⟩ => ⟨S2048x32x1, .f32⟩
  | .hbm, ⟨22, _⟩ => ⟨S2048x32x1, .f32⟩
  | .hbm, ⟨23, _⟩ => ⟨S2048x32x1024, .f32⟩
  | .hbm, ⟨24, _⟩ => ⟨S2048x32x1024, .f32⟩
  | .hbm, ⟨25, _⟩ => ⟨S2048x32x1024, .f32⟩
  | .hbm, ⟨26, _⟩ => ⟨S_, .f32⟩
  | .hbm, ⟨27, _⟩ => ⟨S2048x32, .f32⟩
  | .hbm, ⟨28, _⟩ => ⟨S2048x32x1, .f32⟩
  | .hbm, ⟨29, _⟩ => ⟨S_, .f32⟩
  | .hbm, ⟨30, _⟩ => ⟨S2048x32x1, .f32⟩
  | .hbm, ⟨31, _⟩ => ⟨S2048x32x1, .f32⟩
  | .hbm, ⟨32, _⟩ => ⟨S2048x32x1024, .f32⟩
  | .hbm, ⟨33, _⟩ => ⟨S2048x32x1024, .f32⟩
  | .hbm, ⟨34, _⟩ => ⟨S_, .f32⟩
  | .hbm, ⟨35, _⟩ => ⟨S2048x32x1, .f32⟩
  | .hbm, ⟨36, _⟩ => ⟨S2048x32x1, .f32⟩
  | .hbm, ⟨37, _⟩ => ⟨S2048x32x1, .f32⟩
  | .hbm, ⟨38, _⟩ => ⟨S2048x32x1024, .f32⟩
  | .hbm, ⟨39, _⟩ => ⟨S2048x32x1024, .f32⟩
  | .hbm, ⟨40, _⟩ => ⟨S1x1x1024, .f32⟩
  | .hbm, ⟨41, _⟩ => ⟨S2048x32x1024, .f32⟩
  | .hbm, ⟨42, _⟩ => ⟨S2048x32x1024, .f32⟩
  | .hbm, ⟨43, _⟩ => ⟨S1x1x1024, .f32⟩
  | .hbm, ⟨44, _⟩ => ⟨S2048x32x1024, .f32⟩
  | .hbm, ⟨45, _⟩ => ⟨S2048x32x1024, .f32⟩
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  bcast_S2048x32_S2048x32x1_0_1 : S2048x32.BroadcastsInDim S2048x32x1 (![0, 1] : Fin 2 → Fin S2048x32x1.rank)
  shapeCasts_S1024x1_S1024 : S1024x1.ShapeCasts S1024
  bcast_S1024_S1x1x1024_2 : S1024.BroadcastsInDim S1x1x1024 (![2] : Fin 1 → Fin S1x1x1024.rank)
  bcast_S2048x32x1_S2048x32x1024_0_1_2 : S2048x32x1.BroadcastsInDim S2048x32x1024 (![0, 1, 2] : Fin 3 → Fin S2048x32x1024.rank)
  bcast_S1x1x1024_S2048x32x1024_0_1_2 : S1x1x1024.BroadcastsInDim S2048x32x1024 (![0, 1, 2] : Fin 3 → Fin S2048x32x1024.rank)
  bcast_S_S2048x32x1024 : S_.BroadcastsInDim S2048x32x1024 (![] : Fin 0 → Fin S2048x32x1024.rank)
  reducesTo_S2048x32x1024_S2048x32_d2 : S2048x32x1024.ReducesTo [2] S2048x32
  h_S_ : 0 < S_.numel
  bcast_S_S2048x32x1 : S_.BroadcastsInDim S2048x32x1 (![] : Fin 0 → Fin S2048x32x1.rank)

variable [Facts₀]

class Facts : Prop extends Facts₀ where

variable [Facts]
-- ==== Proof.LibKeepdimsColumn.lean ====
/-
  The layout steps of a row statistic kept as a column (a sum over the last axis with the reduced axis kept at size one),
  read at an index given by coordinates, for any element type and any extents:
  a vector of length a laid out as an [a, 1] column reads, at (i, u), the vector at i;
  an [a, 1] column spread over the b columns of an [a, b] matrix reads, at (i, c), the column at (i, 0);
  and, on the extended reals, the sum over the last axis of an [a, b] matrix reads, at i, the sum over c of the matrix at (i, c).
-/
import Idealize.ShloMosaic.Lib.ValueLayout
import Idealize.ShloMosaic.PureOps.Ideal.Laws

open scoped BigOperators

namespace Cert.LibKeepdimsColumn

open Idealize.ShloMosaic Idealize.ShloMosaic.ValueIdx

variable {α : Type}

/-- A vector of length `a` laid out as an `[a, 1]` column: the entry at `(i, u)` is the vector's entry at `i`,
    whatever the unit coordinate `u` (both have row-major position `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix: the entry at `(i, c)` is the column's entry in
    row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- On the extended reals, the sum over the last axis of an `[a, b]` matrix, started from the zero word: the entry at `i`
    is the sum over the columns `c` of the matrix's entry at `(i, c)`. (The start word's evidence is typed as a printed
    program carries it: the word equal to itself, which is what the neutral word of a sum unfolds to.) -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ c : Fin b, src (ix2 i c) := by
  refine (Ideal.multiReduction_add_single src 0x00000000#32 h hφ hacc (ix1 i)).trans ?_
  refine Finset.sum_congr rfl fun c _ => congrArg src ?_
  funext ax
  match ax with
  | ⟨0, _⟩ => rfl
  | ⟨1, _⟩ => rfl

end Cert.LibKeepdimsColumn
-- ==== Proof.RowNorm.lean ====
/-
  The mathematics both programs compute, for ONE row, on the extended reals.
  A row is made from a scalar a and two vectors w, b of length 1024: its entries are (a · w_d + b_d) · 32.
  The row is then normalised: its mean (the sum of its entries over 1024) is taken off every entry, the mean of the squares of
  what is left, plus the small constant, goes through the reciprocal square root, and each centred entry is multiplied by that,
  then by g_d, and β_d is added. The three constants are kept as the float words the programs print (32, 1024 and the
  float nearest 1e-5): both programs carry the same words, so none is ever evaluated.
-/
import Idealize.ShloMosaic.PureOps.Ideal
import Idealize.ShloMosaic.Lib.ValueIdx

noncomputable section

open scoped BigOperators

namespace Cert.RowNorm

open Idealize.ShloMosaic Idealize.ShloMosaic.ValueIdx

/-- The row before normalisation: (a · w_d + b_d) · 32. -/
def lifted (a : EReal) (w b : Fin 1024 → EReal) (d : Fin 1024) : EReal :=
  (a * w d + b d) * Ideal.ofBits .f32 0x42000000#32

/-- The mean of a row of 1024 entries: their sum over 1024. -/
def mean (h : Fin 1024 → EReal) : EReal :=
  Ideal.div (∑ k : Fin 1024, h k) (Ideal.ofBits .f32 0x44800000#32)

/-- An entry less the row's mean. -/
def centred (h : Fin 1024 → EReal) (d : Fin 1024) : EReal := h d - mean h

/-- The mean of the squares of the centred entries. -/
def variance (h : Fin 1024 → EReal) : EReal :=
  Ideal.div (∑ k : Fin 1024, centred h k * centred h k) (Ideal.ofBits .f32 0x44800000#32)

/-- The normalised row with its affine map: centred · rsqrt (variance + ε) · g_d + β_d. -/
def normed (h g β : Fin 1024 → EReal) (d : Fin 1024) : EReal :=
  centred h d * Ideal.rsqrt (variance h + Ideal.ofBits .f32 0x3727C5AC#32) * g d + β d

/-- The whole row map: from the scalar a and the four vectors to entry d of the result. -/
def rowOut (a : EReal) (w b g β : Fin 1024 → EReal) (d : Fin 1024) : EReal :=
  normed (lifted a w b) g β d

/-- The row map depends on its four vectors only through their entries. -/
theorem rowOut_congr (a : EReal) {w w' b b' g g' β β' : Fin 1024 → EReal} (hw : ∀ d, w d = w' d) (hb : ∀ d, b d = b' d)
    (hg : ∀ d, g d = g' d) (hβ : ∀ d, β d = β' d) (d : Fin 1024) : rowOut a w b g β d = rowOut a w' b' g' β' d := by
  rw [funext hw, funext hb, funext hg, funext hβ]

/-- THE WHOLE RESULT, as one function of the five argument arrays: entry (p, q, d) is the row map at the scalar x(p, q), with
    W's one column, b, γ and β as the four vectors, read at d. -/
def whole (x : (⟨2, ![2048, 32]⟩ : Shape).Idx → EReal) (W : (⟨2, ![1024, 1]⟩ : Shape).Idx → EReal)
    (b g β : (⟨1, ![1024]⟩ : Shape).Idx → EReal) : (⟨3, ![2048, 32, 1024]⟩ : Shape).Idx → EReal := fun i =>
  rowOut (x (ix2 (⟨(i 0).val, (i 0).isLt⟩ : Fin 2048) (⟨(i 1).val, (i 1).isLt⟩ : Fin 32))) (fun k => W (ix2 k (0 : Fin 1)))
    (fun k => b (ix1 k)) (fun k => g (ix1 k)) (fun k => β (ix1 k)) (⟨(i 2).val, (i 2).isLt⟩ : Fin 1024)

end Cert.RowNorm

end
-- ==== Proof.BodyValue.lean ====
/-
  What the kernel body stores, at one entry of its 1024 × 1024 block.
  The body builds the block row by row from a column x (one scalar per row) and four rows w, b, g, β: entry (p, q) of the
  block it stores is the normalised row of Proof/RowNorm.lean made from the scalar x(p, 0) and the four rows, read at q.
  The body's arithmetic is cut here into its stages — the block before normalisation, a block's row means kept as a column,
  the block less its row means, the reciprocal square root of the row variances plus the small constant — and each stage is
  read at an entry: a column spread over the block reads its own row, a row spread over the block reads its own column,
  the sum over the last axis is the sum over the columns of that row.
-/
import proofs.«171811_j13881334301162_1_alg».proof.Proof.Gen.KernelIdeal.Skeleton
import proofs.«171811_j13881334301162_1_alg».proof.Proof.LibKeepdimsColumn
import proofs.«171811_j13881334301162_1_alg».proof.Proof.RowNorm

noncomputable section

open scoped BigOperators

namespace Cert.KernelIdeal.BodyValue

open Cert.KernelIdeal Cert.KernelIdeal.Gen Idealize.ShloMosaic Idealize.ShloMosaic.ValueIdx
open Cert.LibKeepdimsColumn Cert.RowNorm

/-! ## The stages -/

/-- The block before normalisation: (x · w + b) · 32, the column x and the rows w, b spread over the block. -/
def pre (x0 : Vec Ideal S1024x1 .f32) (x1 x2 : Vec Ideal S1x1024 .f32) : FVec Ideal S1024x1024 .f32 :=
  mulf (addf (mulf (broadcastTo S1024x1024 (shapeCast S1024x1 x0 shapeCasts_S1024x1_S1024x1) broadcasts_S1024x1_S1024x1024)
      (broadcastTo S1024x1024 (shapeCast S1x1024 x1 shapeCasts_S1x1024_S1x1024) broadcasts_S1x1024_S1024x1024))
    (broadcastTo S1024x1024 (shapeCast S1x1024 x2 shapeCasts_S1x1024_S1x1024) broadcasts_S1x1024_S1024x1024))
    (broadcast S1024x1024 (Scalar.ofBits .f32 0x42000000#32))

/-- A block's row means, kept as a column: the sum over the last axis, over 1024. -/
def rowMeans (h : FVec Ideal S1024x1024 .f32) : FVec Ideal S1024x1 .f32 :=
  divf (shapeCast S1024x1 (multiReduction .add [1] S1024 h 0x00000000#32 reduces_S1024x1024_S1024 (.inl rfl) rfl) shapeCasts_S1024_S1024x1)
    (broadcast S1024x1 (Scalar.ofBits .f32 0x44800000#32))

/-- The block less its row means. -/
def centredBlock (h : FVec Ideal S1024x1024 .f32) : FVec Ideal S1024x1024 .f32 :=
  subf h (broadcastTo S1024x1024 (rowMeans h) broadcasts_S1024x1_S1024x1024)

/-- The reciprocal square root of each row's variance plus the small constant, as a column. -/
def invStd (h : FVec Ideal S1024x1024 .f32) : FVec Ideal S1024x1 .f32 :=
  rsqrt (addf (rowMeans (mulf (centredBlock h) (centredBlock h))) (broadcast S1024x1 (Scalar.ofBits .f32 0x3727C5AC#32)))

/-- The stored block from the stages: centred · invStd · g + β. -/
def stored (x0 : Vec Ideal S1024x1 .f32) (x1 x2 x3 x4 : Vec Ideal S1x1024 .f32) : FVec Ideal S1024x1024 .f32 :=
  addf (mulf (mulf (centredBlock (pre x0 x1 x2)) (broadcastTo S1024x1024 (invStd (pre x0 x1 x2)) broadcasts_S1024x1_S1024x1024))
      (broadcastTo S1024x1024 (shapeCast S1x1024 x3 shapeCasts_S1x1024_S1x1024) broadcasts_S1x1024_S1024x1024))
    (broadcastTo S1024x1024 (shapeCast S1x1024 x4 shapeCasts_S1x1024_S1x1024) broadcasts_S1x1024_S1024x1024)

/-- The body's payload is the stages composed: the names unfold to the printed sequence of operations. -/
theorem pay_eq_stored (x0 : Vec Ideal S1024x1 .f32) (x1 x2 x3 x4 : Vec Ideal S1x1024 .f32) :
    k0_pay1 (F := Ideal) x0 x1 x2 x3 x4 = stored x0 x1 x2 x3 x4 := rfl

/-! ## Each stage at an entry -/

/-- Entry (p, q) before normalisation is the row made from x(p, 0), read at q. -/
theorem pre_apply (x0 : Vec Ideal S1024x1 .f32) (x1 x2 : Vec Ideal S1x1024 .f32) (p q : Fin 1024) :
    pre x0 x1 x2 (ix2 p q)
      = lifted (x0 (ix2 p (0 : Fin 1))) (fun d => x1 (ix2 (0 : Fin 1) d)) (fun d => x2 (ix2 (0 : Fin 1) d)) q := by
  unfold pre lifted
  simp only [mulf, addf, broadcast, shapeCast_self]
  rw [broadcastTo_a1_ab_apply, broadcastTo_1b_ab_apply, broadcastTo_1b_ab_apply]
  rfl

/-- A row mean at (p, u): the sum over that row's columns, over 1024. -/
theorem rowMeans_apply (h : FVec Ideal S1024x1024 .f32) (p : Fin 1024) (u : Fin 1) :
    rowMeans h (ix2 p u) = mean (fun d => h (ix2 p d)) := by
  unfold rowMeans mean
  simp only [divf, broadcast]
  rw [shapeCast_a_a1_apply]
  exact congrArg (fun s : EReal => Ideal.div s (Ideal.ofBits .f32 0x44800000#32))
    (rowSum_apply h reduces_S1024x1024_S1024 (.inl rfl) rfl p)

/-- A centred entry: the entry less its row's mean. -/
theorem centredBlock_apply (h : FVec Ideal S1024x1024 .f32) (p q : Fin 1024) :
    centredBlock h (ix2 p q) = centred (fun d => h (ix2 p d)) q := by
  unfold centredBlock centred
  simp only [subf]
  rw [broadcastTo_a1_ab_apply, rowMeans_apply]
  rfl

/-- The reciprocal square root at (p, u): of that row's variance plus the small constant. -/
theorem invStd_apply (h : FVec Ideal S1024x1024 .f32) (p : Fin 1024) (u : Fin 1) :
    invStd h (ix2 p u) = Ideal.rsqrt (variance (fun d => h (ix2 p d)) + Ideal.ofBits .f32 0x3727C5AC#32) := by
  unfold invStd variance
  simp only [rsqrt, addf, broadcast]
  rw [rowMeans_apply]
  unfold mean
  simp only [mulf, centredBlock_apply]
  rfl

/-! ## The stored block at an entry -/

/-- ENTRY (p, q) OF WHAT THE BODY STORES is the normalised row made from the scalar x(p, 0) and the four rows, read at q. -/
theorem pay_apply (x0 : Vec Ideal S1024x1 .f32) (x1 x2 x3 x4 : Vec Ideal S1x1024 .f32) (p q : Fin 1024) :
    k0_pay1 (F := Ideal) x0 x1 x2 x3 x4 (ix2 p q)
      = rowOut (x0 (ix2 p (0 : Fin 1))) (fun d => x1 (ix2 (0 : Fin 1) d)) (fun d => x2 (ix2 (0 : Fin 1) d))
          (fun d => x3 (ix2 (0 : Fin 1) d)) (fun d => x4 (ix2 (0 : Fin 1) d)) q := by
  rw [pay_eq_stored]
  unfold stored rowOut normed
  simp only [mulf, addf, shapeCast_self]
  rw [broadcastTo_a1_ab_apply, broadcastTo_1b_ab_apply, broadcastTo_1b_ab_apply, centredBlock_apply, invStd_apply]
  simp only [pre_apply]
  rfl

end Cert.KernelIdeal.BodyValue

end
-- ==== Proof.ArrayValue.lean ====
/-
  From the blocks to the kernel program's result.
  The kernel runs over 64 grid points; point t reads rows 1024·t … 1024·t + 1023 of the flattened scalar column and the whole
  of each of the four rows, and writes back rows 1024·t … 1024·t + 1023 of a [65536, 1024] array. Each written block is the
  restriction of ONE function of the arrays the region finds (`flat`): row r of it is the normalised row of
  Proof/RowNorm.lean made from the scalar in row r of the column. The 64 blocks tile the array (row r is in block r / 1024),
  so the array ends as that function. Around the region the program only re-lays arrays out: before it, x is read row-major as
  a column of 65536 and W, b, γ, β as rows; after it, the [65536, 1024] array is read row-major as [2048, 32, 1024], so entry
  (p, q, d) of the result is entry (32·p + q, d) of the array, whose scalar is x(p, q).
-/
import proofs.«171811_j13881334301162_1_alg».proof.Proof.Gen.KernelIdeal.Frame
import proofs.«171811_j13881334301162_1_alg».proof.Proof.BodyValue
import Idealize.ShloMosaic.Lib.Pipeline.Value
import Idealize.ShloMosaic.Lib.StableHlo.Run

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.RowNorm Cert.KernelIdeal.BodyValue
open Idealize.ShloMosaic.Pipeline (Dat)

variable (m : (ℓ : Loc nD τ sig) → Buf (Elt Ideal) ℓ) (ρ : Dev nD → PrngReg)

/-! ## The array as one function of the arrays the region finds -/

/-- Row r, column d of the [65536, 1024] array: the normalised row made from the scalar in row r of the column `x` and the
    four rows, read at d. -/
def flatOf (x : S65536x1.Idx → EReal) (w b g β : S1x1024.Idx → EReal) : S65536x1024.Idx → EReal := fun i =>
  rowOut (x (ix2 (⟨(i 0).val, (i 0).isLt⟩ : Fin 65536) (0 : Fin 1))) (fun d => w (ix2 (0 : Fin 1) d)) (fun d => b (ix2 (0 : Fin 1) d))
    (fun d => g (ix2 (0 : Fin 1) d)) (fun d => β (ix2 (0 : Fin 1) d)) (⟨(i 1).val, (i 1).isLt⟩ : Fin 1024)

/-- The arrays the region finds, at their literal types. -/
abbrev xcol (c : Dev nD) : S65536x1.Idx → EReal := V m c main_v0
abbrev wrow (c : Dev nD) : S1x1024.Idx → EReal := V m c main_v1
abbrev brow (c : Dev nD) : S1x1024.Idx → EReal := V m c main_v2
abbrev grow (c : Dev nD) : S1x1024.Idx → EReal := V m c main_v3
abbrev βrow (c : Dev nD) : S1x1024.Idx → EReal := V m c main_v4

/-- The function the output array ends as. -/
abbrev flat (c : Dev nD) : S65536x1024.Idx → EReal := flatOf (xcol m c) (wrow m c) (brow m c) (grow m c) (βrow m c)

/-- The input blocks at a point, at their literal types. -/
abbrev xblk (c : Dev nD) (t : Fin cfg0.N) : Vec Ideal S1024x1 .f32 := iblk m c 0 t
abbrev wblk (c : Dev nD) (t : Fin cfg0.N) : Vec Ideal S1x1024 .f32 := iblk m c 1 t
abbrev bblk (c : Dev nD) (t : Fin cfg0.N) : Vec Ideal S1x1024 .f32 := iblk m c 2 t
abbrev gblk (c : Dev nD) (t : Fin cfg0.N) : Vec Ideal S1x1024 .f32 := iblk m c 3 t
abbrev βblk (c : Dev nD) (t : Fin cfg0.N) : Vec Ideal S1x1024 .f32 := iblk m c 4 t

/-! ## The index maps over the grid -/

theorem hz : (![0, 0] : Fin 2 → Nat) = fun _ => 0 := funext fun a => by fin_cases a <;> rfl

/-- The printed index maps, decided over the 64 points: the column's block and the output's block both sit at block row t
    and block column 0; the four rows' one block sits at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks read where the output's rows say -/

/-- Row p of the column's block at point t is row 1024·t + p of the column. -/
theorem xblk_apply (c : Dev nD) (t : Fin cfg0.N) (p : Fin 1024) (r : Fin 65536) (hr : r.val = t.val * 1024 + p.val) :
    xblk m c t (ix2 p (0 : Fin 1)) = xcol m c (ix2 r (0 : Fin 1)) := by
  obtain ⟨e0, e1, -⟩ := idx_facts t
  show V m c main_v0 (((cfg0.win 0).blk t).view.emb (ix2 p (0 : Fin 1))) = V m c main_v0 (ix2 r (0 : Fin 1))
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 1 + 1 * 0 = 0; omega

/-- The four rows' blocks are the rows themselves. -/
theorem wblk_apply (c : Dev nD) (t : Fin cfg0.N) (d : Fin 1024) : wblk m c t (ix2 (0 : Fin 1) d) = wrow m c (ix2 (0 : Fin 1) d) := by
  obtain ⟨-, -, e0, e1, -⟩ := idx_facts t
  show V m c main_v1 (((cfg0.win 1).blk t).view.emb (ix2 (0 : Fin 1) d)) = V m c main_v1 (ix2 (0 : Fin 1) d)
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 1024 + 1 * d.val = d.val; omega
theorem bblk_apply (c : Dev nD) (t : Fin cfg0.N) (d : Fin 1024) : bblk m c t (ix2 (0 : Fin 1) d) = brow m c (ix2 (0 : Fin 1) d) := by
  obtain ⟨-, -, -, -, e0, e1, -⟩ := idx_facts t
  show V m c main_v2 (((cfg0.win 2).blk t).view.emb (ix2 (0 : Fin 1) d)) = V m c main_v2 (ix2 (0 : Fin 1) d)
  refine congrArg (V m c main_v2) (funext fun a => Fin.ext ?_)
  match a with
  | ⟨0, _⟩ => show win0_2.index t (0 : Fin 2) * 1 + 1 * 0 = 0; omega
  | ⟨1, _⟩ => show win0_2.index t (1 : Fin 2) * 1024 + 1 * d.val = d.val; omega
theorem gblk_apply (c : Dev nD) (t : Fin cfg0.N) (d : Fin 1024) : gblk m c t (ix2 (0 : Fin 1) d) = grow m c (ix2 (0 : Fin 1) d) := by
  obtain ⟨-, -, -, -, -, -, e0, e1, -⟩ := idx_facts t
  show V m c main_v3 (((cfg0.win 3).blk t).view.emb (ix2 (0 : Fin 1) d)) = V m c main_v3 (ix2 (0 : Fin 1) d)
  refine congrArg (V m c main_v3) (funext fun a => Fin.ext ?_)
  match a with
  | ⟨0, _⟩ => show win0_3.index t (0 : Fin 2) * 1 + 1 * 0 = 0; omega
  | ⟨1, _⟩ => show win0_3.index t (1 : Fin 2) * 1024 + 1 * d.val = d.val; omega
theorem βblk_apply (c : Dev nD) (t : Fin cfg0.N) (d : Fin 1024) : βblk m c t (ix2 (0 : Fin 1) d) = βrow m c (ix2 (0 : Fin 1) d) := by
  obtain ⟨-, -, -, -, -, -, -, -, e0, e1, -⟩ := idx_facts t
  show V m c main_v4 (((cfg0.win 4).blk t).view.emb (ix2 (0 : Fin 1) d)) = V m c main_v4 (ix2 (0 : Fin 1) d)
  refine congrArg (V m c main_v4) (funext fun a => Fin.ext ?_)
  match a with
  | ⟨0, _⟩ => show win0_4.index t (0 : Fin 2) * 1 + 1 * 0 = 0; omega
  | ⟨1, _⟩ => show win0_4.index t (1 : Fin 2) * 1024 + 1 * d.val = d.val; omega

/-! ## What a point writes back -/

/-- WHAT POINT t WRITES BACK is block t of `flat`. -/
theorem flushed_eq (c : Dev nD) (t : Fin cfg0.N) :
    (dats m 0 c).flushed 5 t = ((cfg0.win 5).blk t).view.read (Elt Ideal) (flat m c) := by
  show (cfg0.win 5).cut (grid0.coords t) ((dats m 0 c).after 5 t) = _
  rw [after0_5]
  unfold out0_5
  rw [View.canon_unit_zero hz]
  simp only [View.ld_unit_zero (S := S1024x1) hz, View.ld_unit_zero (S := S1x1024) hz]
  funext j
  have hj0 : (j 0).val < 1024 := (j 0).isLt
  have hj1 : (j 1).val < 1024 := (j 1).isLt
  have ht : t.val < 64 := Nat.lt_of_lt_of_eq t.isLt N_0
  obtain ⟨-, -, -, -, -, -, -, -, -, -, e0, e1⟩ := idx_facts t
  have ej : (cfg0.win 5).xinj (grid0.coords t) j = ix2 (⟨(j 0).val, hj0⟩ : Fin 1024) (⟨(j 1).val, hj1⟩ : Fin 1024) := by
    funext a; match a with | ⟨0, _⟩ => rfl | ⟨1, _⟩ => rfl
  show k0_pay1 (F := Ideal) (xblk m c t) (wblk m c t) (bblk m c t) (gblk m c t) (βblk m c t) ((cfg0.win 5).xinj (grid0.coords t) j)
    = flat m c (((cfg0.win 5).blk t).view.emb j)
  rw [ej]
  refine (pay_apply (xblk m c t) (wblk m c t) (bblk m c t) (gblk m c t) (βblk m c t) ⟨(j 0).val, hj0⟩ ⟨(j 1).val, hj1⟩).trans ?_
  have hr0 : ((((cfg0.win 5).blk t).view.emb j) 0).val = t.val * 1024 + (j 0).val := by
    show win0_5.index t (0 : Fin 2) * 1024 + 1 * (j 0).val = _; omega
  have hr1 : ((((cfg0.win 5).blk t).view.emb j) 1).val = (j 1).val := by
    show win0_5.index t (1 : Fin 2) * 1024 + 1 * (j 1).val = _; omega
  unfold flat flatOf
  simp only [wblk_apply, bblk_apply, gblk_apply, βblk_apply]
  rw [xblk_apply m c t ⟨(j 0).val, hj0⟩ ⟨((((cfg0.win 5).blk t).view.emb j) 0).val, ((((cfg0.win 5).blk t).view.emb j) 0).isLt⟩ hr0]
  exact congrArg (rowOut _ _ _ _ _) (Fin.ext hr1.symm)

/-! ## The blocks tile the array -/

/-- An index of the array is in point t's block iff each coordinate is in the block's range on its axis. -/
theorem mem_blk (t : Fin cfg0.N) (i : S65536x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v5).slice (win0_5.rect t)).set ↔ _
  rw [View.set_slice_whole, Rect.mem_set_unit]
  exact Iff.rfl

/-- Row r of the array is in the block of point r / 1024, and every point writes its block back. -/
theorem cover (i : S65536x1024.Idx) : ∃ t : Fin cfg0.N, (cfg0.win 5).flush t = true ∧ i ∈ ((cfg0.win 5).blk t).view.set := by
  have hi0 : (i 0).val < 65536 := (i 0).isLt
  have hi1 : (i 1).val < 1024 := (i 1).isLt
  have hlt : (i 0).val / 1024 < cfg0.N := Nat.lt_of_lt_of_eq (by omega : (i 0).val / 1024 < 64) N_0.symm
  refine ⟨⟨(i 0).val / 1024, hlt⟩, flush0_5 _, ?_⟩
  rw [mem_blk]
  obtain ⟨-, -, -, -, -, -, -, -, -, -, e0, e1⟩ := idx_facts ⟨(i 0).val / 1024, hlt⟩
  have e0' : win0_5.index ⟨(i 0).val / 1024, hlt⟩ (0 : Fin 2) = (i 0).val / 1024 := e0
  intro a
  match a with
  | ⟨0, _⟩ =>
    show win0_5.index ⟨(i 0).val / 1024, hlt⟩ (0 : Fin 2) * 1024 ≤ (i 0).val
      ∧ (i 0).val < win0_5.index ⟨(i 0).val / 1024, hlt⟩ (0 : Fin 2) * 1024 + 1024
    omega
  | ⟨1, _⟩ =>
    show win0_5.index ⟨(i 0).val / 1024, hlt⟩ (1 : Fin 2) * 1024 ≤ (i 1).val
      ∧ (i 1).val < win0_5.index ⟨(i 0).val / 1024, hlt⟩ (1 : Fin 2) * 1024 + 1024
    omega

/-- THE ARRAY after the region is `flat` of the arrays the region found. -/
theorem final (c : Dev nD) : (dats m 0 c).arrAt 5 cfg0.N = flat m c :=
  (dats m 0 c).arrAt_eq_of_cover 5 (flat m c) (fun t _ => flushed_eq m c t) cover

/-! ## The arrays the region finds: the arguments re-laid -/

theorem xcol_eq (c : Dev nD) : xcol m c = shapeCast S65536x1 (m ((c : Thread nD τ).loc main_arg0)) shapeCasts_S2048x32_S65536x1 := by
  show StableHlo.after hostOps0 (fun b => m (c, b)) (Proc.devRef .tc main_v0) = _
  after_results; rfl
theorem wrow_eq (c : Dev nD) : wrow m c = shapeCast S1x1024 (m ((c : Thread nD τ).loc main_arg1)) shapeCasts_S1024x1_S1x1024 := by
  show StableHlo.after hostOps0 (fun b => m (c, b)) (Proc.devRef .tc main_v1) = _
  after_results; rfl
theorem brow_eq (c : Dev nD) : brow m c = shapeCast S1x1024 (m ((c : Thread nD τ).loc main_arg2)) shapeCasts_S1024_S1x1024 := by
  show StableHlo.after hostOps0 (fun b => m (c, b)) (Proc.devRef .tc main_v2) = _
  after_results; rfl
theorem grow_eq (c : Dev nD) : grow m c = shapeCast S1x1024 (m ((c : Thread nD τ).loc main_arg3)) shapeCasts_S1024_S1x1024 := by
  show StableHlo.after hostOps0 (fun b => m (c, b)) (Proc.devRef .tc main_v3) = _
  after_results; rfl
theorem βrow_eq (c : Dev nD) : βrow m c = shapeCast S1x1024 (m ((c : Thread nD τ).loc main_arg4)) shapeCasts_S1024_S1x1024 := by
  show StableHlo.after hostOps0 (fun b => m (c, b)) (Proc.devRef .tc main_v4) = _
  after_results; rfl

/-- Row 32·p + q of the column is x(p, q): both have row-major position 32·p + q. -/
theorem xcol_apply (c : Dev nD) (p : Fin 2048) (q : Fin 32) (r : Fin 65536) (hr : r.val = p.val * 32 + q.val) :
    xcol m c (ix2 r (0 : Fin 1)) = (m ((c : Thread nD τ).loc main_arg0) : S2048x32.Idx → EReal) (ix2 p q) := by
  rw [xcol_eq]
  exact shapeCast_apply _ shapeCasts_S2048x32_S65536x1 _ _ (by
    rw [Shape.rowMajor_val_two, Shape.rowMajor_val_two]
    show p.val * 32 + q.val = r.val * 1 + 0
    omega)

/-- Column d of the row of weights is W(d, 0). -/
theorem wrow_apply (c : Dev nD) (d : Fin 1024) :
    wrow m c (ix2 (0 : Fin 1) d) = (m ((c : Thread nD τ).loc main_arg1) : S1024x1.Idx → EReal) (ix2 d (0 : Fin 1)) := by
  rw [wrow_eq]
  exact shapeCast_apply _ shapeCasts_S1024x1_S1x1024 _ _ (by
    rw [Shape.rowMajor_val_two, Shape.rowMajor_val_two]
    show d.val * 1 + 0 = 0 * 1024 + d.val
    omega)

/-- Column d of a vector laid out as a row is the vector's entry d. -/
theorem brow_apply (c : Dev nD) (d : Fin 1024) :
    brow m c (ix2 (0 : Fin 1) d) = (m ((c : Thread nD τ).loc main_arg2) : S1024.Idx → EReal) (ix1 d) := by
  rw [brow_eq]; exact shapeCast_a_1a_apply _ shapeCasts_S1024_S1x1024 0 d
theorem grow_apply (c : Dev nD) (d : Fin 1024) :
    grow m c (ix2 (0 : Fin 1) d) = (m ((c : Thread nD τ).loc main_arg3) : S1024.Idx → EReal) (ix1 d) := by
  rw [grow_eq]; exact shapeCast_a_1a_apply _ shapeCasts_S1024_S1x1024 0 d
theorem βrow_apply (c : Dev nD) (d : Fin 1024) :
    βrow m c (ix2 (0 : Fin 1) d) = (m ((c : Thread nD τ).loc main_arg4) : S1024.Idx → EReal) (ix1 d) := by
  rw [βrow_eq]; exact shapeCast_a_1a_apply _ shapeCasts_S1024_S1x1024 0 d

/-! ## The result: the array read row-major as [2048, 32, 1024] -/

/-- What the line after the region leaves in the result buffer: the array re-laid. -/
theorem tail_eq (c : Dev nD) :
    Pipeline.afterTail₀ cfgs (dats m) 0 (V0 m) [hostOps1] c main_v6
      = shapeCast S2048x32x1024 (flat m c) shapeCasts_S65536x1024_S2048x32x1024 := by
  unfold Pipeline.afterTail₀
  show StableHlo.after hostOps1 _ (Proc.devRef .tc main_v6) = _
  after_results
  exact congrArg (fun A : S65536x1024.Idx → EReal => shapeCast S2048x32x1024 A shapeCasts_S65536x1024_S2048x32x1024)
    ((Pipeline.withArrays_arr spec0 launch0.win.arr_inj c _ _ 5).trans (final m c))

/-- THE RESULT is the whole-result function of the five arguments. -/
theorem result_eq (c : Dev nD) :
    Pipeline.afterTail₀ cfgs (dats m) 0 (V0 m) [hostOps1] c main_v6
      = whole (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_eq]
  funext i
  have h0 : (i 0).val < 2048 := (i 0).isLt
  have h1 : (i 1).val < 32 := (i 1).isLt
  have h2 : (i 2).val < 1024 := (i 2).isLt
  have hr : (i 0).val * 32 + (i 1).val < 65536 := by omega
  refine (shapeCast_apply (flat m c) shapeCasts_S65536x1024_S2048x32x1024 i
    (ix2 (⟨(i 0).val * 32 + (i 1).val, hr⟩ : Fin 65536) (⟨(i 2).val, h2⟩ : Fin 1024)) (by
      rw [Shape.rowMajor_val_two, Shape.rowMajor_val_three]
      show ((i 0).val * 32 + (i 1).val) * 1024 + (i 2).val = ((i 0).val * 32 + (i 1).val) * 1024 + (i 2).val
      rfl)).trans ?_
  unfold flat flatOf whole
  rw [xcol_apply m c ⟨(i 0).val, h0⟩ ⟨(i 1).val, h1⟩ _ rfl]
  exact rowOut_congr _ (wrow_apply m c) (brow_apply m c) (grow_apply m c) (βrow_apply m c) _

/-! ## The run, read -/

/-- Every weakly fair execution of the kernel program ends with the result buffer at the whole-result function of the
    arguments, and the arguments as they were. -/
theorem run : θ_run defs (onTc (τ := τ) (main (F := Ideal))) ⟨m, fun _ => 0, ρ⟩ fun r => ∀ c : Dev nD,
      r.2.mem ((c.tc : Thread nD τ).loc main_v6)
        = whole (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.ArrayValue

end
-- ==== Proof.RefValue.lean ====
/-
  What the reference computes, at one entry (p, q, d) of its [2048, 32, 1024] result.
  The reference spreads the scalar x(p, q) against the vectors w = W(·, 0), b, γ, β along a new last axis and normalises along
  it: entry (p, q, d) of its result is the normalised row of Proof/RowNorm.lean made from the scalar x(p, q) and the four
  vectors, read at d. The generated read-at-an-index lemmas give each of the reference's operations at an entry from its
  operands at an entry; composed here stage by stage — the spread row before normalisation, its mean, the centred row,
  its variance — they are the row map's own stages. The reference's two sums start from the zero word, which is the real 0.
-/
import proofs.«171811_j13881334301162_1_alg».proof.Proof.Gen.ReferenceIdeal.Read
import proofs.«171811_j13881334301162_1_alg».proof.Proof.RowNorm
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.RowNorm

variable (a0 : (⟨S2048x32, .f32⟩ : BufTy).Contents (Elt Ideal)) (a1 : (⟨S1024x1, .f32⟩ : BufTy).Contents (Elt Ideal))
  (a2 a3 a4 : (⟨S1024, .f32⟩ : BufTy).Contents (Elt Ideal))

/-- The reference's row at (p, q): from the scalar x(p, q), W's one column and the bias vector. -/
abbrev row (p : Fin 2048) (q : Fin 32) : Fin 1024 → EReal :=
  lifted (a0 (ix2 p q)) (fun k => a1 (ix2 k (0 : Fin 1))) (fun k => a2 (ix1 k))

/-! ## The index maps of the reference's layout operations, on coordinates -/

theorem keep_pq (p : Fin 2048) (q : Fin 32) (d : Fin 1024) : idx_main_v15 (ix3 p q d) = ix3 p q (0 : Fin 1) :=
  funext fun a => Fin.ext (by match a with | ⟨0, _⟩ => rfl | ⟨1, _⟩ => rfl | ⟨2, _⟩ => rfl)
theorem drop_unit (p : Fin 2048) (q : Fin 32) (u : Fin 1) : idx_main_v12 (ix3 p q u) = ix2 p q :=
  funext fun a => Fin.ext (by match a with | ⟨0, _⟩ => rfl | ⟨1, _⟩ => rfl)
theorem along (p : Fin 2048) (q : Fin 32) (k : Fin 1024) : idx_main_v11 (ix2 p q) k = ix3 p q k :=
  funext fun a => Fin.ext (by match a with | ⟨0, _⟩ => rfl | ⟨1, _⟩ => rfl | ⟨2, _⟩ => rfl)
theorem keep_d (p : Fin 2048) (q : Fin 32) (d : Fin 1024) : idx_main_v4 (ix3 p q d) = ix3 (0 : Fin 1) (0 : Fin 1) d :=
  funext fun a => Fin.ext (by match a with | ⟨0, _⟩ => rfl | ⟨1, _⟩ => rfl | ⟨2, _⟩ => rfl)
theorem last_only (u v : Fin 1) (d : Fin 1024) : idx_main_v2 (ix3 u v d) = ix1 d :=
  funext fun a => Fin.ext (by match a with | ⟨0, _⟩ => rfl)
/-- The reference prints some layout steps more than once: the same index maps under other names. -/
theorem keep_pq22 (p : Fin 2048) (q : Fin 32) (d : Fin 1024) : idx_main_v22 (ix3 p q d) = ix3 p q (0 : Fin 1) := keep_pq p q d
theorem keep_pq27 (p : Fin 2048) (q : Fin 32) (d : Fin 1024) : idx_main_v27 (ix3 p q d) = ix3 p q (0 : Fin 1) := keep_pq p q d
theorem drop_unit19 (p : Fin 2048) (q : Fin 32) (u : Fin 1) : idx_main_v19 (ix3 p q u) = ix2 p q := drop_unit p q u
theorem along18 (p : Fin 2048) (q : Fin 32) (k : Fin 1024) : idx_main_v18 (ix2 p q) k = ix3 p q k := along p q k
theorem as_column (d : Fin 1024) : idx_main_v1 (ix1 d) = ix2 d (0 : Fin 1) :=
  funext fun a => Fin.ext (by match a with | ⟨0, _⟩ => exact Nat.div_one _ | ⟨1, _⟩ => rfl)

/-! ## The stages at an entry -/

/-- A vector spread over the first two axes reads its own entry d. -/
theorem spread_vec (x : (⟨S1024, .f32⟩ : BufTy).Contents (Elt Ideal)) (p : Fin 2048) (q : Fin 32) (d : Fin 1024) :
    val_main_v7 (F := Ideal) x (ix3 p q d) = x (ix1 d) := by
  rw [val_main_v7_apply, val_main_v6_apply]
  exact congrArg x ((congrArg idx_main_v6 (keep_d p q d)).trans (last_only 0 0 d))

theorem spread_vec30 (x : (⟨S1024, .f32⟩ : BufTy).Contents (Elt Ideal)) (p : Fin 2048) (q : Fin 32) (d : Fin 1024) :
    val_main_v30 (F := Ideal) x (ix3 p q d) = x (ix1 d) := spread_vec x p q d
theorem spread_vec33 (x : (⟨S1024, .f32⟩ : BufTy).Contents (Elt Ideal)) (p : Fin 2048) (q : Fin 32) (d : Fin 1024) :
    val_main_v33 (F := Ideal) x (ix3 p q d) = x (ix1 d) := spread_vec x p q d

/-- Before normalisation: entry (p, q, d) is the row at (p, q), read at d. -/
theorem pre_apply (p : Fin 2048) (q : Fin 32) (d : Fin 1024) :
    val_main_v10 (F := Ideal) a0 a1 a2 (ix3 p q d) = row a0 a1 a2 p q d := by
  rw [val_main_v10_apply, val_main_v8_apply, val_main_v5_apply, spread_vec, val_main_v3_apply, val_main_v0_apply,
    val_main_v4_apply, val_main_v2_apply, val_main_v1_apply, val_main_v9_apply, val_main_cst_apply]
  have e0 : idx_main_v0 (idx_main_v3 (ix3 p q d)) = ix2 p q := (congrArg idx_main_v0 (keep_pq p q d)).trans (drop_unit p q 0)
  have e1 : idx_main_v1 (idx_main_v2 (idx_main_v4 (ix3 p q d))) = ix2 d (0 : Fin 1) :=
    (congrArg (fun j => idx_main_v1 (idx_main_v2 j)) (keep_d p q d)).trans ((congrArg idx_main_v1 (last_only 0 0 d)).trans (as_column d))
  rw [e0, e1]
  rfl

/-- The mean, kept on a unit last axis: at (p, q, u) the mean of the row at (p, q). -/
theorem mean_apply (p : Fin 2048) (q : Fin 32) (u : Fin 1) :
    val_main_v14 (F := Ideal) a0 a1 a2 (ix3 p q u) = mean (row a0 a1 a2 p q) := by
  rw [val_main_v14_apply, val_main_v12_apply, drop_unit, val_main_v11_apply, val_main_v13_apply, val_main_cst_1_apply,
    val_main_cst_0_apply]
  simp only [along, pre_apply]
  show Ideal.div (Ideal.ofBits .f32 0x00000000#32 + _) _ = _
  rw [Ideal.ofBits_zero_f32, zero_add]
  rfl

/-- The centred entry (p, q, d). -/
theorem centred_apply (p : Fin 2048) (q : Fin 32) (d : Fin 1024) :
    val_main_v16 (F := Ideal) a0 a1 a2 (ix3 p q d) = centred (row a0 a1 a2 p q) d := by
  rw [val_main_v16_apply, val_main_v15_apply, keep_pq, mean_apply, pre_apply]
  rfl

/-- The reference subtracts the mean a second time for the output: the same entry. -/
theorem centred_apply' (p : Fin 2048) (q : Fin 32) (d : Fin 1024) :
    val_main_v23 (F := Ideal) a0 a1 a2 (ix3 p q d) = centred (row a0 a1 a2 p q) d := by
  rw [val_main_v23_apply, val_main_v22_apply, keep_pq22, mean_apply, pre_apply]
  rfl

/-- The variance, kept on a unit last axis. -/
theorem variance_apply (p : Fin 2048) (q : Fin 32) (u : Fin 1) :
    val_main_v21 (F := Ideal) a0 a1 a2 (ix3 p q u) = variance (row a0 a1 a2 p q) := by
  rw [val_main_v21_apply, val_main_v19_apply, drop_unit19, val_main_v18_apply, val_main_v20_apply, val_main_cst_3_apply,
    val_main_cst_2_apply]
  simp only [along18, val_main_v17_apply, centred_apply]
  show Ideal.div (Ideal.ofBits .f32 0x00000000#32 + _) _ = _
  rw [Ideal.ofBits_zero_f32, zero_add]
  rfl

/-! ## The result at an entry -/

/-- ENTRY (p, q, d) OF THE REFERENCE'S RESULT is the normalised row made from x(p, q) and the four vectors, read at d. -/
theorem result_apply (p : Fin 2048) (q : Fin 32) (d : Fin 1024) :
    val_main_v34 (F := Ideal) a0 a1 a2 a3 a4 (ix3 p q d)
      = rowOut (a0 (ix2 p q)) (fun k => a1 (ix2 k (0 : Fin 1))) (fun k => a2 (ix1 k)) (fun k => a3 (ix1 k)) (fun k => a4 (ix1 k)) d := by
  rw [val_main_v34_apply, val_main_v31_apply, val_main_v28_apply, centred_apply', val_main_v27_apply, keep_pq27,
    val_main_v26_apply, val_main_v25_apply, variance_apply, val_main_v24_apply, val_main_cst_4_apply, spread_vec30, spread_vec33]
  rfl

/-- THE REFERENCE'S RESULT is the whole-result function of its five arguments. -/
theorem result_eq_whole : val_main_v34 (F := Ideal) a0 a1 a2 a3 a4 = whole a0 a1 a2 a3 a4 := by
  funext i
  obtain ⟨p, q, d, rfl⟩ : ∃ (p : Fin 2048) (q : Fin 32) (d : Fin 1024), i = ix3 p q d := ⟨i 0, i 1, i 2, eq_ix3 i⟩
  exact (result_apply a0 a1 a2 a3 a4 p q d).trans rfl

end Cert.ReferenceIdeal.RefValue

end
-- ==== Proof.lean ====
/-
  The kernel and the reference compute one function.
  For each of the 2048 × 32 scalars x(p, q) both programs make a row of 1024 entries (x(p, q) · W(d, 0) + b(d)) · 32, take the
  row's mean off it, divide by the square root of the mean square of what is left plus a small constant (as a product with
  the reciprocal square root), multiply by γ(d) and add β(d). The reference does it on a [2048, 32, 1024] array along the last
  axis; the kernel flattens the scalars to a column of 65536, works on 64 blocks of 1024 rows and reads the [65536, 1024]
  result back as [2048, 32, 1024]: row 32·p + q of the flat array is the row of x(p, q). Over the extended reals the two are
  the same expression operation by operation — the same three float words, a quotient by 1024 on both sides, the same
  reciprocal square root, a sum over the same 1024 entries (the reference's from the zero word, which is the real 0) —
  so no law of arithmetic beyond 0 + s = s is used and the finiteness of the inputs is never opened.
  Proof/RowNorm.lean states the row map and the whole result; Proof/BodyValue.lean reads the kernel body's stored block at an
  entry; Proof/ArrayValue.lean carries the blocks to the array and the array through the layout steps around the region;
  Proof/RefValue.lean reads the reference's result at an entry. The frames of the two kernel programs are the generated ones;
  the reference's frame is its generated run with the result dropped; nothing was rewritten by the idealisation, so the
  preservation claim is the true proposition.
-/
import proofs.«171811_j13881334301162_1_alg».proof.Defs
import proofs.«171811_j13881334301162_1_alg».proof.Proof.Gen.Kernel
import proofs.«171811_j13881334301162_1_alg».proof.Proof.Gen.Kernel.Skeleton
import proofs.«171811_j13881334301162_1_alg».proof.Proof.Gen.Kernel.Launch
import proofs.«171811_j13881334301162_1_alg».proof.Proof.Gen.Kernel.Points
import proofs.«171811_j13881334301162_1_alg».proof.Proof.Gen.Kernel.Frame
import proofs.«171811_j13881334301162_1_alg».proof.Proof.Gen.KernelIdeal
import proofs.«171811_j13881334301162_1_alg».proof.Proof.Gen.KernelIdeal.Skeleton
import proofs.«171811_j13881334301162_1_alg».proof.Proof.Gen.KernelIdeal.Launch
import proofs.«171811_j13881334301162_1_alg».proof.Proof.Gen.KernelIdeal.Points
import proofs.«171811_j13881334301162_1_alg».proof.Proof.Gen.KernelIdeal.Frame
import proofs.«171811_j13881334301162_1_alg».proof.Proof.Gen.ReferenceIdeal
import proofs.«171811_j13881334301162_1_alg».proof.Proof.Gen.Pre_finite_inputs
import proofs.«171811_j13881334301162_1_alg».proof.Proof.Gen.ReferenceIdeal.Run
import proofs.«171811_j13881334301162_1_alg».proof.Proof.Gen.ReferenceIdeal.Read
import proofs.«171811_j13881334301162_1_alg».proof.Proof.ArrayValue
import proofs.«171811_j13881334301162_1_alg».proof.Proof.RefValue
import Idealize.ShloMosaic.Adequacy
import Idealize.ShloMosaic.Init

noncomputable section

namespace Cert.Proof

open Idealize.ShloMosaic Idealize.SL.Sem Cert.Kernel

/-- From memories that agree on the five arguments both idealised programs run, and their results are the same array: the
    kernel program's result is the whole-result function of its arguments (the blocks, tiled and re-laid), the reference's
    is the same function of its own (each operation read at an entry), and the arguments agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq_whole,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
